-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1000 : Shape := ⟨2, ![32768, 1000]⟩
abbrev S32768 : Shape := ⟨1, ![32768]⟩
abbrev S_ : Shape := ⟨0, ![]⟩

class Facts : Prop where
  bcast_S_S32768x1000 : S_.BroadcastsInDim S32768x1000 (![] : Fin 0 → Fin S32768x1000.rank)
  reducesTo_S32768x1000_S_d0_1 : S32768x1000.ReducesTo [0, 1] S_
  h_S_ : 0 < S_.numel
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S32768x1000 .f32) (main_arg1 : IVec S32768 32) : IVec S_ 1 :=
  let main_v0 : FVec F S32768x1000 .f32 := Host.absf main_arg0
  let main_cst : FVec F S_ .f32 := constant S_ .f32 0x7F800000#32
  let main_v1 : FVec F S32768x1000 .f32 := broadcastInDim S32768x1000 ![] bcast_S_S32768x1000 main_cst
  let main_v2 : IVec S32768x1000 1 := cmpf .olt main_v0 main_v1
  let main_c : IVec S_ 1 := constantI S_ 1 1#1
  let main_v3 : IVec S_ 1 := (fun x v => Host.reduce IntOp.andi x v reducesTo_S32768x1000_S_d0_1 h_S_) main_v2 main_c
  let main_c_0 : IVec S_ 32 := constantI S_ 32 0#32
  let main_v4 : IVec S32768 32 := broadcastInDim S32768 ![] bcast_S_S32768 main_c_0
  let main_v5 : IVec S32768 1 := cmpi .sge main_arg1 main_v4
  let main_c_1 : IVec S_ 1 := constantI S_ 1 1#1
  let main_v6 : IVec S_ 1 := (fun x v => Host.reduce IntOp.andi x v reducesTo_S32768_S_d0 h_S_) main_v5 main_c_1
  let main_v7 : IVec S_ 1 := andi main_v3 main_v6
  let main_c_2 : IVec S_ 32 := constantI S_ 32 1000#32
  let main_v8 : IVec S32768 32 := broadcastInDim S32768 ![] bcast_S_S32768 main_c_2
  let main_v9 : IVec S32768 1 := cmpi .slt main_arg1 main_v8
  let main_c_3 : IVec S_ 1 := constantI S_ 1 1#1
  let main_v10 : IVec S_ 1 := (fun x v => Host.reduce IntOp.andi x v reducesTo_S32768_S_d0 h_S_) main_v9 main_c_3
  let main_v11 : IVec S_ 1 := andi main_v7 main_v10
  main_v11
-- ==== Kernel.lean ====
abbrev S32768x1000 : Shape := ⟨2, ![32768, 1000]⟩
abbrev S32768 : Shape := ⟨1, ![32768]⟩
abbrev S_ : Shape := ⟨0, ![]⟩
abbrev S1000 : Shape := ⟨1, ![1000]⟩
abbrev S32768x1 : Shape := ⟨2, ![32768, 1]⟩
abbrev S1x1000 : Shape := ⟨2, ![1, 1000]⟩
abbrev S32x1x1 : Shape := ⟨3, ![32, 1, 1]⟩
abbrev S1024x1000 : Shape := ⟨2, ![1024, 1000]⟩
abbrev S1024x1 : Shape := ⟨2, ![1024, 1]⟩
abbrev S1x1x1 : Shape := ⟨3, ![1, 1, 1]⟩
abbrev S1024 : Shape := ⟨1, ![1024]⟩
abbrev S1 : Shape := ⟨1, ![1]⟩
abbrev S1x1 : Shape := ⟨2, ![1, 1]⟩

abbrev nBuf : Space → Nat
  | .hbm => 35
  | .vmem => 8
  | .smem => 0
  | _ => 0

abbrev bufTy : (tb : Table) → Fin (tcTables nBuf tb) → BufTy
  | .hbm, ⟨0, _⟩ => ⟨S32768x1000, .f32⟩
  | .hbm, ⟨1, _⟩ => ⟨S32768, .i32⟩
  | .hbm, ⟨2, _⟩ => ⟨S_, .f32⟩
  | .hbm, ⟨3, _⟩ => ⟨S1000, .f32⟩
  | .hbm, ⟨4, _⟩ => ⟨S_, .i32⟩
  | .hbm, ⟨5, _⟩ => ⟨S32768, .i32⟩
  | .hbm, ⟨6, _⟩ => ⟨S32768, .i1⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S32768, .i32⟩
  | .hbm, ⟨11, _⟩ => ⟨S32768x1, .i32⟩
  | .hbm, ⟨12, _⟩ => ⟨S_, .f32⟩
  | .hbm, ⟨13, _⟩ => ⟨S32768, .f32⟩
  | .hbm, ⟨14, _⟩ => ⟨S1000, .f32⟩
  | .hbm, ⟨15, _⟩ => ⟨S1x1000, .f32⟩
  | .hbm, ⟨16, _⟩ => ⟨S_, .f32⟩
  | .hbm, ⟨17, _⟩ => ⟨S1000, .f32⟩
  | .hbm, ⟨18, _⟩ => ⟨S1000, .i1⟩
  | .hbm, ⟨19, _⟩ => ⟨S_, .f32⟩
  | .hbm, ⟨20, _⟩ => ⟨S1000, .f32⟩
  | .hbm, ⟨21, _⟩ => ⟨S1000, .f32⟩
  | .hbm, ⟨22, _⟩ => ⟨S1000, .f32⟩
  | .hbm, ⟨23, _⟩ => ⟨S_, .f32⟩
  | .hbm, ⟨24, _⟩ => ⟨S_, .f32⟩
  | .hbm, ⟨25, _⟩ => ⟨S1000, .f32⟩
  | .hbm, ⟨26, _⟩ => ⟨S1000, .f32⟩
  | .hbm, ⟨27, _⟩ => ⟨S1x1000, .f32⟩
  | .hbm, ⟨28, _⟩ => ⟨S32768x1, .i32⟩
  | .hbm, ⟨29, _⟩ => ⟨S32x1x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1x1000, .f32⟩
  | .local _ .vmem, ⟨3, _⟩ => ⟨S1x1000, .f32⟩
  | .local _ .vmem, ⟨4, _⟩ => ⟨S1024x1, .i32⟩
  | .local _ .vmem, ⟨5, _⟩ => ⟨S1024x1, .i32⟩
  | .local _ .vmem, ⟨6, _⟩ => ⟨S1x1x1, .f32⟩
  | .local _ .vmem, ⟨7, _⟩ => ⟨S1x1x1, .f32⟩
  | _, _ => ⟨S32768x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1000 : S_.BroadcastsInDim S1000 (![] : Fin 0 → Fin S1000.rank)
  bcast_S_S32768 : S_.BroadcastsInDim S32768 (![] : Fin 0 → Fin S32768.rank)
  bcast_S32768_S32768x1_0 : S32768.BroadcastsInDim S32768x1 (![0] : Fin 1 → Fin S32768x1.rank)
  shapeCasts_S1000_S1x1000 : S1000.ShapeCasts S1x1000
  shapeCasts_S32768_S32768x1 : S32768.ShapeCasts S32768x1
  inb_S1024x1000_S1024x1000_0_0 : ∀ a, (![0, 0] : Fin 2 → Nat) a + S1024x1000.size a ≤ S1024x1000.size a
  h_S1024x1000 : 0 < S1024x1000.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S1024x1000 : S1x1000.Broadcasts S1024x1000
  reduces_S1024x1000_S1024 : S1024x1000.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1000_d1_w32 : S1024x1000.Iotas .tc 32 [1]
  broadcasts_S1024x1_S1024x1000 : S1024x1.Broadcasts S1024x1000
  reduces_S1024x1_S1 : S1024x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S32x1x1_S_d0_1_2 : S32x1x1.ReducesTo [0, 1, 2] S_
  h_S_ : 0 < S_.numel
  scatter_S1000_S32768x1_S32768_n_0_0_1_wf : ScatterDims.WF S1000 S32768x1 S32768 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S32768x1000.size a
  hwx0_0 : ∀ i : grid0.Coords, EltTy.bits .f32 = 32 ∨ (Rect.block (s := S32768x1000) S1024x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1000.size a ≤ S1x1000.size a
  hwx0_1 : ∀ i : grid0.Coords, EltTy.bits .f32 = 32 ∨ (Rect.block (s := S1x1000) S1x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S32768x1.size a
  hwx0_3 : ∀ i : grid0.Coords, EltTy.bits .i32 = 32 ∨ (Rect.block (s := S32768x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S32x1x1.size a
  hwx0_4 : ∀ i : grid0.Coords, EltTy.bits .f32 = 32 ∨ (Rect.block (s := S32x1x1) S1x1x1.size (cc0_transform_4 i) (hinb0_4 i)).WholeWords (EltTy.packing .f32)

variable [Facts₀]

def scatter_S1000_S32768x1_S32768_n_0_0_1 : ScatterDims S1000 S32768x1 S32768 where
  updateWindowDims := []
  insertedWindowDims := [0]
  scatterDimsToOperandDims := [0]
  indexVectorDim := 1
  wf := scatter_S1000_S32768x1_S32768_n_0_0_1_wf

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x1000 : Shape := ⟨2, ![32768, 1000]⟩
abbrev S32768 : Shape := ⟨1, ![32768]⟩
abbrev S_ : Shape := ⟨0, ![]⟩
abbrev S1000 : Shape := ⟨1, ![1000]⟩
abbrev S32768x1 : Shape := ⟨2, ![32768, 1]⟩
abbrev S1x1000 : Shape := ⟨2, ![1, 1000]⟩
abbrev S32768x1x1 : Shape := ⟨3, ![32768, 1, 1]⟩
abbrev S1 : Shape := ⟨1, ![1]⟩
abbrev S1x1x1 : Shape := ⟨3, ![1, 1, 1]⟩

abbrev nBuf : Space → Nat
  | .hbm => 54
  | .vmem => 0
  | .smem => 0
  | _ => 0

abbrev bufTy : (tb : Table) → Fin (tcTables nBuf tb) → BufTy
  | .hbm, ⟨0, _⟩ => ⟨S32768x1000, .f32⟩
  | .hbm, ⟨1, _⟩ => ⟨S32768, .i32⟩
  | .hbm, ⟨2, _⟩ => ⟨S_, .f32⟩
  | .hbm, ⟨3, _⟩ => ⟨S1000, .f32⟩
  | .hbm, ⟨4, _⟩ => ⟨S_, .i32⟩
  | .hbm, ⟨5, _⟩ => ⟨S32768, .i32⟩
  | .hbm, ⟨6, _⟩ => ⟨S32768, .i1⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S32768, .i32⟩
  | .hbm, ⟨11, _⟩ => ⟨S32768x1, .i32⟩
  | .hbm, ⟨12, _⟩ => ⟨S_, .f32⟩
  | .hbm, ⟨13, _⟩ => ⟨S32768, .f32⟩
  | .hbm, ⟨14, _⟩ => ⟨S1000, .f32⟩
  | .hbm, ⟨15, _⟩ => ⟨S32768x1000, .f32⟩
  | .hbm, ⟨16, _⟩ => ⟨S1x1000, .f32⟩
  | .hbm, ⟨17, _⟩ => ⟨S32768x1000, .f32⟩
  | .hbm, ⟨18, _⟩ => ⟨S32768x1000, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S32768x1, .f32⟩
  | .hbm, ⟨23, _⟩ => ⟨S32768x1000, .f32⟩
  | .hbm, ⟨24, _⟩ => ⟨S32768x1000, .f32⟩
  | .hbm, ⟨25, _⟩ => ⟨S32768x1000, .f32⟩
  | .hbm, ⟨26, _⟩ => ⟨S32768x1, .i32⟩
  | .hbm, ⟨27, _⟩ => ⟨S_, .i32⟩
  | .hbm, ⟨28, _⟩ => ⟨S32768x1, .i32⟩
  | .hbm, ⟨29, _⟩ => ⟨S32768x1, .i1⟩
  | .hbm, ⟨30, _⟩ => ⟨S_, .i32⟩
  | .hbm, ⟨31, _⟩ => ⟨S32768x1, .i32⟩
  | .hbm, ⟨32, _⟩ => ⟨S32768x1, .i32⟩
  | .hbm, ⟨33, _⟩ => ⟨S32768x1, .i32⟩
  | .hbm, ⟨34, _⟩ => ⟨S32768x1x1, .i32⟩
  | .hbm, ⟨35, _⟩ => ⟨S1, .i32⟩
  | .hbm, ⟨36, _⟩ => ⟨S_, .i32⟩
  | .hbm, ⟨37, _⟩ => ⟨S32768x1x1, .i32⟩
  | .hbm, ⟨38, _⟩ => ⟨S32768x1x1, .i1⟩
  | .hbm, ⟨39, _⟩ => ⟨S1x1x1, .i32⟩
  | .hbm, ⟨40, _⟩ => ⟨S32768x1x1, .i32⟩
  | .hbm, ⟨41, _⟩ => ⟨S32768x1x1, .i1⟩
  | .hbm, ⟨42, _⟩ => ⟨S32768x1x1, .i1⟩
  | .hbm, ⟨43, _⟩ => ⟨S_, .i1⟩
  | .hbm, ⟨44, _⟩ => ⟨S32768x1, .i1⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S32768x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_cst : Ref sig .tc := ⟨.hbm, 46, rfl⟩
abbrev main_call0_v14 : Ref sig .tc := ⟨.hbm, 47, rfl⟩
abbrev main_v20 : Ref sig .tc := ⟨.hbm, 48, rfl⟩
abbrev main_cst_3 : Ref sig .tc := ⟨.hbm, 49, rfl⟩
abbrev main_v21 : Ref sig .tc := ⟨.hbm, 50, rfl⟩
abbrev main_v22 : Ref sig .tc := ⟨.hbm, 51, rfl⟩
abbrev main_cst_4 : Ref sig .tc := ⟨.hbm, 52, rfl⟩
abbrev main_v23 : Ref sig .tc := ⟨.hbm, 53, rfl⟩

abbrev nD : Nat := 1
abbrev τ : Topo := Topo.v7x

variable {F : FTy → Type} [FloatOps F]

class Facts₀ : Prop where
  bcast_S_S1000 : S_.BroadcastsInDim S1000 (![] : Fin 0 → Fin S1000.rank)
  bcast_S_S32768 : S_.BroadcastsInDim S32768 (![] : Fin 0 → Fin S32768.rank)
  bcast_S32768_S32768x1_0 : S32768.BroadcastsInDim S32768x1 (![0] : Fin 1 → Fin S32768x1.rank)
  bcast_S1000_S1x1000_1 : S1000.BroadcastsInDim S1x1000 (![1] : Fin 1 → Fin S1x1000.rank)
  bcast_S1x1000_S32768x1000_0_1 : S1x1000.BroadcastsInDim S32768x1000 (![0, 1] : Fin 2 → Fin S32768x1000.rank)
  reducesTo_S32768x1000_S32768_d1 : S32768x1000.ReducesTo [1] S32768
  h_S_ : 0 < S_.numel
  bcast_S32768x1_S32768x1000_0_1 : S32768x1.BroadcastsInDim S32768x1000 (![0, 1] : Fin 2 → Fin S32768x1000.rank)
  bcast_S_S32768x1 : S_.BroadcastsInDim S32768x1 (![] : Fin 0 → Fin S32768x1.rank)
  shapeCasts_S32768x1_S32768x1x1 : S32768x1.ShapeCasts S32768x1x1
  bcast_S_S32768x1x1 : S_.BroadcastsInDim S32768x1x1 (![] : Fin 0 → Fin S32768x1x1.rank)
  bcast_S1_S1x1x1_2 : S1.BroadcastsInDim S1x1x1 (![2] : Fin 1 → Fin S1x1x1.rank)
  bcast_S1x1x1_S32768x1x1_0_1_2 : S1x1x1.BroadcastsInDim S32768x1x1 (![0, 1, 2] : Fin 3 → Fin S32768x1x1.rank)
  reducesTo_S32768x1x1_S32768x1_d2 : S32768x1x1.ReducesTo [2] S32768x1
  reducesTo_S32768x1_S_d0_1 : S32768x1.ReducesTo [0, 1] S_
  scatter_S1000_S32768x1_S32768_n_0_0_1_wf : ScatterDims.WF S1000 S32768x1 S32768 [] [0] [0] 1
  gather_S32768x1000_S32768x1x1_S32768x1_n_1_0_0_1_2_11_wf : GatherDims.WF S32768x1000 S32768x1x1 S32768x1 [] [1] [0] [1] [0] 2 ![1, 1]

variable [Facts₀]

def scatter_S1000_S32768x1_S32768_n_0_0_1 : ScatterDims S1000 S32768x1 S32768 where
  updateWindowDims := []
  insertedWindowDims := [0]
  scatterDimsToOperandDims := [0]
  indexVectorDim := 1
  wf := scatter_S1000_S32768x1_S32768_n_0_0_1_wf
def gather_S32768x1000_S32768x1x1_S32768x1_n_1_0_0_1_2_11 : GatherDims S32768x1000 S32768x1x1 S32768x1 where
  offsetDims := []
  collapsedSliceDims := [1]
  operandBatchingDims := [0]
  startIndicesBatchingDims := [0]
  startIndexMap := [1]
  indexVectorDim := 2
  sliceSizes := ![1, 1]
  wf := gather_S32768x1000_S32768x1x1_S32768x1_n_1_0_0_1_2_11_wf

class Facts : Prop extends Facts₀ where

variable [Facts]
-- ==== Proof.PreDecode.lean ====
/-
  The precondition read back: every logit is a real number, and every target is a class number in `[0, 1000)`.

  The predicate is the conjunction of three `all`s: `|x| < +∞` over the logits, `0 ≤ target` and `target < 1000`
  (signed) over the targets. Each `all` that is true is true at every element.
-/
import proofs.«402333_j79663053406253_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.BalancedSoftmax

open Idealize.ShloMosaic Idealize.ShloMosaic.ValueIdx Cert.Pre_finite_inputs

variable [Cert.Pre_finite_inputs.Facts]

/-- A rank-0 shape has one index. -/
instance : Subsingleton Cert.Pre_finite_inputs.S_.Idx := ⟨fun _ _ => funext fun d => d.elim0⟩

/-- The f32 pattern `0x7F800000` is `+∞`. -/
theorem ofBits_inf_f32 : Ideal.ofBits .f32 0x7F800000#32 = ⊤ := by simp [Ideal.ofBits, Ideal.ieee]

/-- An extended real whose absolute value is below `+∞` is a real. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- THE PRECONDITION DECODED. -/
theorem pre_decode (X : FVec Ideal S32768x1000 .f32) (T : IVec S32768 32)
    (h : Cert.Pre_finite_inputs.fn (F := Ideal) X T = fun _ => 1#1) :
    (∀ i, ∃ r : ℝ, X i = (r : EReal)) ∧ ∀ b, 0 ≤ (T b).toInt ∧ (T b).toInt < 1000 := by
  have e := congrFun h ix0
  dsimp only [Cert.Pre_finite_inputs.fn] at e
  obtain ⟨h12, h3⟩ := IntOp.andi_eq_one.1 e
  obtain ⟨h1, h2⟩ := IntOp.andi_eq_one.1 h12
  refine ⟨fun i => ?_, fun b => ⟨?_, ?_⟩⟩
  · have hi := Host.reduce_andi_all _ _ _ _ _ h1 i
    have hi' : Ideal.cmp .olt (max (X i) (-(X i))) (Ideal.ofBits .f32 0x7F800000#32) = 1#1 := hi
    rw [ofBits_inf_f32] at hi'
    exact real_of_abs_lt_top _ hi'
  · have hb := Host.reduce_andi_all _ _ _ _ _ h2 b
    have hb' : IntOp.cmpi .sge (T b) 0#32 = 1#1 := hb
    simpa using IntOp.cmpi_sge.1 hb'
  · have hb := Host.reduce_andi_all _ _ _ _ _ h3 b
    have hb' : IntOp.cmpi .slt (T b) 1000#32 = 1#1 := hb
    have := IntOp.cmpi_slt.1 hb'
    simpa using this

end Cert.BalancedSoftmax

end
-- ==== Proof.LibKeepdimsColumn.lean ====
/-
  General layout lemmas for a `sum(axis=1, keepdims=True)` column, read at an index by coordinates, in the style of
  the library's Lib/ValueLayout.lean (which has the leading-unit-axis casts and the one-row broadcast):

    * `shapeCast_a_a1_apply`: an `[a]` vector cast to an `[a, 1]` column reads, at `(i, u)`, the vector at `i`;
    * `broadcastTo_a1_ab_apply`: an `[a, 1]` column broadcast to `[a, b]` reads, at `(p, c)`, the column at `(p, 0)`;
    * `rowSum_f32_apply` / `colSum_f32_apply`: an f32 `multi_reduction <add>` from the zero word over axis 1 of an
      `[a, b]` array, resp. over axis 0 of an `[a, 1]` column, at the ideal values, as a sum over that axis's
      coordinates with the index written by coordinates.
-/
import Idealize.ShloMosaic.Lib.ValueLayout
import Idealize.ShloMosaic.Lib.Pipeline.Value
import Idealize.ShloMosaic.PureOps.Ideal.Laws

noncomputable section

namespace Cert.Lib.KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum from the zero word over axis 1 of an `[a, b]` array, at row `r`, is the sum over the row. -/
theorem rowSum_f32_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  refine Finset.sum_congr rfl fun k _ => congrArg v (funext fun ax => Fin.ext ?_)
  match ax with
  | ⟨0, _⟩ => rfl
  | ⟨1, _⟩ => rfl

/-- An f32 sublane sum from the zero word over axis 0 of an `[a, 1]` column is the sum of the column. -/
theorem colSum_f32_apply {a : ℕ} (v : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ v 0x00000000#32 h hφ hacc (ix1 u) = ∑ r : Fin a, v (ix2 r (0 : Fin 1)) := by
  refine (Ideal.multiReduction_add_single v 0x00000000#32 h hφ hacc (ix1 u)).trans ?_
  refine Finset.sum_congr rfl fun r _ => congrArg v (funext fun ax => Fin.ext ?_)
  match ax with
  | ⟨0, _⟩ => rfl
  | ⟨1, _⟩ =>
    have hu := u.isLt
    show u.val = 0
    omega

end Cert.Lib.KeepdimsColumn

end
-- ==== Proof.KerHost.lean ====
/-
  What the kernel's region finds in the arrays the host lines before it wrote: the class histogram as a
  `[1, 1000]` row, the guarded logarithm of the histogram as a `[1, 1000]` row, and the targets as a
  `[32768, 1]` column — each a named function of the target array.
-/
import proofs.«402333_j79663053406253_2_alg».proof.Proof.Gen.KernelIdeal.Frame
import Idealize.ShloMosaic.Lib.StableHlo.Run
import Idealize.ShloMosaic.PureOps.Ideal
import Idealize.ShloMosaic.PureOps.Ideal.Laws
import Idealize.ShloMosaic.Lib.IdealHost
import proofs.«402333_j79663053406253_2_alg».proof.Proof.LibKeepdimsColumn

set_option maxRecDepth 16384

noncomputable section

namespace Cert.KernelIdeal.KerHost

open Cert.KernelIdeal Cert.KernelIdeal.Gen
open Idealize.ShloMosaic Idealize.ShloMosaic.TcCoe Idealize.SL.Sem Idealize.ShloMosaic.StableHlo
open Idealize.ShloMosaic.ValueIdx Cert.Lib.KeepdimsColumn

/-- The target with a negative index wrapped, as jnp indexes. -/
def wrapped (T : IVec S32768 32) : IVec S32768 32 :=
  select (cmpi .slt T (broadcastInDim S32768 ![] Gen.bcast_S_S32768 (constantI S_ 32 0#32)))
    (addi T (broadcastInDim S32768 ![] Gen.bcast_S_S32768 (constantI S_ 32 1000#32))) T

/-- The class histogram: ones scattered onto zeros at the wrapped targets. -/
def freq (T : IVec S32768 32) : FVec Ideal S1000 .f32 :=
  Host.scatterAdd scatter_S1000_S32768x1_S32768_n_0_0_1
    (broadcastInDim S1000 ![] Gen.bcast_S_S1000 (constant (F := Ideal) S_ .f32 0x00000000#32))
    (broadcastInDim S32768x1 ![0] Gen.bcast_S32768_S32768x1_0 (wrapped T))
    (broadcastInDim S32768 ![] Gen.bcast_S_S32768 (constant (F := Ideal) S_ .f32 0x3F800000#32))

/-- The guarded logarithm of a vector of counts: `log (max f ε)` where `f > 0`, else zero. -/
def guardedLog (f : FVec Ideal S1000 .f32) : FVec Ideal S1000 .f32 :=
  select (cmpf .ogt f (broadcastInDim S1000 ![] Gen.bcast_S_S1000 (constant (F := Ideal) S_ .f32 0x00000000#32)))
    (Host.log (maximumf f (broadcastInDim S1000 ![] Gen.bcast_S_S1000 (constant (F := Ideal) S_ .f32 0x0DA24260#32))))
    (broadcastInDim S1000 ![] Gen.bcast_S_S1000 (id (constant (F := Ideal) S_ .f32 0x00000000#32)))

/-- The guarded logarithm at class `t`. -/
theorem guardedLog_apply (f : FVec Ideal S1000 .f32) (t : Fin 1000) :
    guardedLog f (ix1 t) = Scalar.select (Ideal.cmp .ogt (f (ix1 t)) 0)
      (Ideal.log (max (f (ix1 t)) (Ideal.ofBits .f32 0x0DA24260#32))) 0 := by
  show Scalar.select
      (Ideal.cmp .ogt (f (ix1 t)) (broadcastInDim S1000 ![] _ (constant (F := Ideal) S_ .f32 0x00000000#32) (ix1 t)))
      (Ideal.log (max (f (ix1 t)) (broadcastInDim S1000 ![] _ (constant (F := Ideal) S_ .f32 0x0DA24260#32) (ix1 t))))
      (broadcastInDim S1000 ![] _ (id (constant (F := Ideal) S_ .f32 0x00000000#32)) (ix1 t)) = _
  rw [broadcastInDim_scalar_apply, broadcastInDim_scalar_apply, broadcastInDim_scalar_apply]
  show Scalar.select (Ideal.cmp .ogt _ (Ideal.ofBits .f32 0x00000000#32))
      (Ideal.log (max _ (Ideal.ofBits .f32 0x0DA24260#32))) (Ideal.ofBits .f32 0x00000000#32) = _
  rw [Ideal.ofBits_zero_f32]

/-- The guarded logarithm of the histogram. -/
def safeLog (T : IVec S32768 32) : FVec Ideal S1000 .f32 := guardedLog (freq T)

variable (m : (ℓ : Loc nD τ sig) → Buf (Elt Ideal) ℓ)

/-- The histogram row as the region finds it. -/
theorem V_freq (c : Dev nD) :
    (V m c main_v9 : S1x1000.Idx → EReal)
      = shapeCast S1x1000 (freq (m ((c : Thread nD τ).loc main_arg1))) Gen.shapeCasts_S1000_S1x1000 := by
  dsimp only [Gen.V, Gen.V0]
  simp only [Gen.hostOps0, Gen.hostOps0_1, Gen.hostOps0_2, List.flatten_cons, List.flatten_nil, List.append_nil,
    List.cons_append, List.nil_append]
  after_results
  rfl

set_option maxHeartbeats 1000000 in
/-- The guarded log-histogram row as the region finds it. -/
theorem V_safeLog (c : Dev nD) :
    (V m c main_v16 : S1x1000.Idx → EReal)
      = shapeCast S1x1000 (safeLog (m ((c : Thread nD τ).loc main_arg1))) Gen.shapeCasts_S1000_S1x1000 := by
  dsimp only [Gen.V, Gen.V0]
  simp only [Gen.hostOps0, Gen.hostOps0_1, Gen.hostOps0_2, List.flatten_cons, List.flatten_nil, List.append_nil,
    List.cons_append, List.nil_append]
  after_results_simp
  try simp only [TRef.ofBuf, TRef.toBuf, cast_eq]
  rfl

/-- The target column as the region finds it. -/
theorem V_tgt (c : Dev nD) :
    (V m c main_v17 : S32768x1.Idx → BitVec 32)
      = shapeCast S32768x1 (m ((c : Thread nD τ).loc main_arg1)) Gen.shapeCasts_S32768_S32768x1 := by
  dsimp only [Gen.V, Gen.V0]
  simp only [Gen.hostOps0, Gen.hostOps0_1, Gen.hostOps0_2, List.flatten_cons, List.flatten_nil, List.append_nil,
    List.cons_append, List.nil_append]
  after_results
  rfl

/-- The histogram row at class `k`. -/
theorem freq_row_apply (c : Dev nD) (k : Fin 1000) :
    (V m c main_v9 : S1x1000.Idx → EReal) (ix2 (0 : Fin 1) k) = freq (m ((c : Thread nD τ).loc main_arg1)) (ix1 k) := by
  rw [V_freq]; exact shapeCast_a_1a_apply _ _ 0 k

/-- The guarded log-histogram row at class `k`. -/
theorem safeLog_row_apply (c : Dev nD) (k : Fin 1000) :
    (V m c main_v16 : S1x1000.Idx → EReal) (ix2 (0 : Fin 1) k) = safeLog (m ((c : Thread nD τ).loc main_arg1)) (ix1 k) := by
  rw [V_safeLog]; exact shapeCast_a_1a_apply _ _ 0 k

/-- The target column at row `b`. -/
theorem tgt_col_apply (c : Dev nD) (b : Fin 32768) :
    (V m c main_v17 : S32768x1.Idx → BitVec 32) (ix2 b (0 : Fin 1)) = m ((c : Thread nD τ).loc main_arg1) (ix1 b) := by
  rw [V_tgt]; exact shapeCast_a_a1_apply _ _ b 0

end Cert.KernelIdeal.KerHost

end
-- ==== Proof.KerBody.lean ====
/-
  What one grid point of the kernel writes: the sum, over the 1024 rows of its block, of the masked pick less the
  logarithm of the row's scaled exponential sum.

  With `x` the block of logits, `fr` the histogram row, `lf` the guarded log-histogram row and `tg` the block's
  target column, the one stored entry is
    ∑ᵣ ( ∑ₖ [tg r = k] (x[r,k] + lf[k])  −  log ∑ₖ exp x[r,k] · fr[k] ).
-/
import proofs.«402333_j79663053406253_2_alg».proof.Proof.Gen.KernelIdeal.Skeleton
import proofs.«402333_j79663053406253_2_alg».proof.Proof.LibKeepdimsColumn

noncomputable section

namespace Cert.KernelIdeal.Body

open Cert.KernelIdeal Cert.KernelIdeal.Gen Cert.Lib.KeepdimsColumn
open Idealize.ShloMosaic Idealize.ShloMosaic.ValueIdx

/-- THE STORED ENTRY of a grid point, from its four loaded blocks. -/
theorem pay_apply (x : FVec Ideal S1024x1000 .f32) (fr lf : FVec Ideal S1x1000 .f32) (tg : IVec S1024x1 32) :
    k0_pay1 (F := Ideal) x fr lf tg (ix3 (0 : Fin 1) (0 : Fin 1) (0 : Fin 1))
      = ∑ r : Fin 1024,
          ((∑ k : Fin 1000, Scalar.select (IntOp.cmpi .eq (tg (ix2 r (0 : Fin 1))) (BitVec.ofNat 32 k.val))
              (x (ix2 r k) + lf (ix2 (0 : Fin 1) k)) 0)
            - Ideal.log (∑ k : Fin 1000, Ideal.exp (x (ix2 r k)) * fr (ix2 (0 : Fin 1) k))) := by
  unfold k0_pay1
  dsimp only
  refine (shapeCast_ab_1ab_apply _ _ 0 0 0).trans ?_
  refine (shapeCast_a_1a_apply _ _ 0 0).trans ?_
  refine (colSum_f32_apply _ _ _ _ 0).trans ?_
  refine Finset.sum_congr rfl fun r _ => ?_
  refine congrArg₂ (· - ·) ?_ ?_
  · refine (shapeCast_a_a1_apply _ _ r 0).trans ?_
    refine (rowSum_f32_apply _ _ _ _ r).trans ?_
    refine Finset.sum_congr rfl fun k _ => ?_
    show Scalar.select
        (IntOp.cmpi .eq (broadcastTo S1024x1000 (shapeCast S1024x1 tg _) _ (ix2 r k)) (iota .tc S1024x1000 32 [1] _ (ix2 r k)))
        (x (ix2 r k) + broadcastTo S1024x1000 (shapeCast S1x1000 lf _) _ (ix2 r k)) (Ideal.ofBits .f32 0#32) = _
    rw [broadcastTo_a1_ab_apply, shapeCast_self, iota_single_apply, broadcastTo_1b_ab_apply, shapeCast_self,
      Ideal.ofBits_zero_f32]
  · refine congrArg Ideal.log ?_
    refine (shapeCast_a_a1_apply _ _ r 0).trans ?_
    refine (rowSum_f32_apply _ _ _ _ r).trans ?_
    refine Finset.sum_congr rfl fun k _ => ?_
    show Ideal.exp (x (ix2 r k)) * broadcastTo S1024x1000 (shapeCast S1x1000 fr _) _ (ix2 r k) = _
    rw [broadcastTo_1b_ab_apply, shapeCast_self]

end Cert.KernelIdeal.Body

end
-- ==== Proof.Scalars.lean ====
/-
  Scalar facts on the extended reals used by the balanced-softmax bridge.

  For a class whose count `n` is at least one and a finite logit `p`:
    * `log (exp p · n) = p + log n` (the reference takes the logarithm of the scaled exponential, the kernel adds
      the logit and the logarithm of the count);
    * the kernel's guard `max n ε` with the tiny positive literal `ε` (the f32 nearest 1e-30) is `n`, and its
      test `n > 0` is true, so the guarded logarithm is `log n`.
-/
import Idealize.ShloMosaic.PureOps.Ideal
import Idealize.ShloMosaic.PureOps.Ideal.Laws
import Idealize.ShloMosaic.Lib.IdealHost

noncomputable section

namespace Cert.BalancedSoftmax

open Idealize.ShloMosaic

/-- The exponential of a real is its real exponential. -/
theorem exp_coe (p : ℝ) : Ideal.exp (p : EReal) = ((Real.exp p : ℝ) : EReal) := rfl

/-- The logarithm of a positive real is its real logarithm. -/
theorem log_coe_pos {r : ℝ} (hr : 0 < r) : Ideal.log (r : EReal) = ((Real.log r : ℝ) : EReal) := by
  show (if r ≤ 0 then (⊥ : EReal) else ((Real.log r : ℝ) : EReal)) = _
  rw [if_neg (not_le.2 hr)]

/-- `log (exp p · n) = p + log n` for a real `p` and a count `n ≥ 1`. -/
theorem log_exp_mul_count (p : ℝ) (n : ℕ) (hn : 1 ≤ n) :
    Ideal.log (Ideal.exp (p : EReal) * ((n : ℝ) : EReal)) = (p : EReal) + Ideal.log ((n : ℝ) : EReal) := by
  have hn0 : (0 : ℝ) < (n : ℝ) := by exact_mod_cast hn
  rw [exp_coe, ← EReal.coe_mul, log_coe_pos (mul_pos (Real.exp_pos p) hn0), log_coe_pos hn0,
    Real.log_mul (Real.exp_pos p).ne' hn0.ne', Real.log_exp, EReal.coe_add]

/-- The kernel's guard literal, the f32 nearest `1e-30`, is at most one. -/
theorem eps_le_one : Ideal.ofBits .f32 0x0DA24260#32 ≤ 1 := by
  simp [Ideal.ofBits, Ideal.ieee, -EReal.coe_mul]
  rw [show (1 : EReal) = ((1 : ℝ) : EReal) by norm_cast, EReal.coe_le_coe_iff]
  norm_num

/-- A count of at least one, as an extended real, is at least one. -/
theorem one_le_count (n : ℕ) (hn : 1 ≤ n) : (1 : EReal) ≤ ((n : ℝ) : EReal) := by
  rw [show (1 : EReal) = ((1 : ℝ) : EReal) by norm_cast]
  exact EReal.coe_le_coe_iff.2 (by exact_mod_cast hn)

/-- The guard `max n ε` leaves a count of at least one as it is. -/
theorem max_count_eps (n : ℕ) (hn : 1 ≤ n) :
    max ((n : ℝ) : EReal) (Ideal.ofBits .f32 0x0DA24260#32) = ((n : ℝ) : EReal) :=
  max_eq_left (le_trans eps_le_one (one_le_count n hn))

/-- The test `n > 0` is true of a count of at least one. -/
theorem count_gt_zero (n : ℕ) (hn : 1 ≤ n) : Ideal.cmp .ogt ((n : ℝ) : EReal) 0 = 1#1 := by
  have h : 0 < n := hn
  simp [Ideal.cmp, h]

/-- So the kernel's guarded logarithm `where (n > 0) (log (max n ε)) z` of a count `n ≥ 1` is `log n`. -/
theorem guarded_log_count (n : ℕ) (hn : 1 ≤ n) (z : EReal) :
    Scalar.select (Ideal.cmp .ogt ((n : ℝ) : EReal) 0)
      (Ideal.log (max ((n : ℝ) : EReal) (Ideal.ofBits .f32 0x0DA24260#32))) z = Ideal.log ((n : ℝ) : EReal) := by
  rw [count_gt_zero n hn, max_count_eps n hn]
  exact if_pos rfl

end Cert.BalancedSoftmax

end
-- ==== Proof.Hist.lean ====
/-
  The class histogram at a class some row lands on.

  The histogram is the accumulating scatter of ones into a zero vector of 1000 classes, row `b` of the 32768
  rows landing on class `idx[b, 0]` read signed, and dropped when that is outside `[0, 1000)`. Its value at a
  class `t` is the number of rows landing on `t`; if row `b` lands there this number is at least one.
-/
import Idealize.ShloMosaic.PureOps.Ideal
import Idealize.ShloMosaic.Lib.ValueIdx

noncomputable section

namespace Cert.BalancedSoftmax

open Idealize.ShloMosaic Idealize.ShloMosaic.ValueIdx

abbrev SClasses : Shape := ⟨1, ![1000]⟩
abbrev SRows : Shape := ⟨1, ![32768]⟩
abbrev SRowsCol : Shape := ⟨2, ![32768, 1]⟩

/-- The histogram's dimension numbers: every row is one scalar index into the class axis. -/
abbrev histDims (wf : ScatterDims.WF SClasses SRowsCol SRows [] [0] [0] 1) : ScatterDims SClasses SRowsCol SRows where
  updateWindowDims := []
  insertedWindowDims := [0]
  scatterDimsToOperandDims := [0]
  indexVectorDim := 1
  wf := wf

variable (wf : ScatterDims.WF SClasses SRowsCol SRows [] [0] [0] 1)

/-- Row `j` starts its one-element window at `idx[j, 0]`, read signed. -/
theorem hist_start (j : SRows.Idx) (idx : IVec SRowsCol 32) (a : Fin SClasses.rank) :
    (histDims wf).start j idx a = (idx (ix2 (j 0) 0)).toInt := by
  obtain rfl : a = 0 := Subsingleton.elim _ _
  unfold ScatterDims.start
  rw [dif_pos (show (0 : Fin 1) ∈ (histDims wf).scatterDimsToOperandDims from List.mem_singleton.mpr rfl)]
  congr 2
  funext b
  match b with
  | ⟨0, _⟩ => rfl
  | ⟨1, _⟩ => rfl

/-- The window has no coordinate of its own: the class axis is inserted. -/
theorem hist_window (j : SRows.Idx) (a : Fin SClasses.rank) : (histDims wf).window j a = 0 := by
  obtain rfl : a = 0 := Subsingleton.elim _ _
  unfold ScatterDims.window
  rw [dif_neg (show (0 : Fin 1) ∉ SClasses.kept ([0] : List (Fin 1)) by decide)]

/-- A row whose index reads `t` lands on class `t`. -/
theorem hist_lands (idx : IVec SRowsCol 32) (b : Fin 32768) (t : Fin 1000)
    (h : (idx (ix2 b 0)).toInt = (t.val : Int)) :
    (histDims wf).resultIdx? (ix1 b) idx = some (ix1 t) := by
  have hs : ∀ a, (histDims wf).start (ix1 b) idx a + ((histDims wf).window (ix1 b) a : Int) = (t.val : Int) := by
    intro a; rw [hist_start, hist_window]; simpa using h
  unfold ScatterDims.resultIdx?
  rw [dif_pos (fun a => by
    rw [hs a]; obtain rfl : a = 0 := Subsingleton.elim _ _
    exact ⟨by omega, by have := t.isLt; show (t.val : Int) < (1000 : Nat); omega⟩)]
  congr 1
  funext a
  obtain rfl : a = 0 := Subsingleton.elim _ _
  refine Fin.ext ?_
  show ((histDims wf).start (ix1 b) idx 0 + ((histDims wf).window (ix1 b) 0 : Int)).toNat = t.val
  rw [hs 0]; simp

/-- The histogram of ones over zeros, at a class some row lands on, is a count of at least one. -/
theorem hist_count (x : SClasses.Idx → EReal) (upd : SRows.Idx → EReal) (idx : IVec SRowsCol 32) (b : Fin 32768) (t : Fin 1000)
    (hx : x (ix1 t) = 0) (hu : ∀ j, upd j = 1) (h : (idx (ix2 b 0)).toInt = (t.val : Int)) :
    ∃ n : ℕ, 1 ≤ n ∧ Ideal.hostScatterAdd (histDims wf) x idx upd (ix1 t) = ((n : ℝ) : EReal) := by
  obtain rfl : upd = fun _ => (1 : EReal) := funext hu
  unfold Ideal.hostScatterAdd
  rw [hx, zero_add, Finset.sum_const, nsmul_one]
  refine ⟨_, ?_, EReal.coe_natCast.symm⟩
  refine Finset.card_pos.2 ⟨ix1 b, ?_⟩
  rw [Finset.mem_filter]
  exact ⟨Finset.mem_univ _, hist_lands wf idx b t h⟩

end Cert.BalancedSoftmax

end
-- ==== Proof.Pick.lean ====
/-
  Picking one entry per row: the reference's `take_along_axis` read at a row.

  The gather has the row axis as a batching axis and reads, in row `b`, the single column whose number is the
  start index `idx[b, 0, 0]` read signed and clamped into `[0, 999]`.
-/
import Idealize.ShloMosaic.PureOps.ShapeOps
import Idealize.ShloMosaic.PureOps.Reduce
import Idealize.ShloMosaic.Lib.ValueIdx

noncomputable section

namespace Cert.BalancedSoftmax

open Idealize.ShloMosaic Idealize.ShloMosaic.ValueIdx

abbrev SLogits : Shape := ⟨2, ![32768, 1000]⟩
abbrev SPicked : Shape := ⟨2, ![32768, 1]⟩
abbrev SPickIdx : Shape := ⟨3, ![32768, 1, 1]⟩

/-- The pick's dimension numbers: rows batched, the class axis collapsed and indexed. -/
abbrev pickDims (wf : GatherDims.WF SLogits SPickIdx SPicked [] [1] [0] [1] [0] 2 ![1, 1]) : GatherDims SLogits SPickIdx SPicked where
  offsetDims := []
  collapsedSliceDims := [1]
  operandBatchingDims := [0]
  startIndicesBatchingDims := [0]
  startIndexMap := [1]
  indexVectorDim := 2
  sliceSizes := ![1, 1]
  wf := wf

variable (wf : GatherDims.WF SLogits SPickIdx SPicked [] [1] [0] [1] [0] 2 ![1, 1])

/-- On the row axis the operand index is the result's row. -/
theorem pick_row (idx : IVec SPickIdx 32) (j : SPicked.Idx) : ((pickDims wf).operandIdx j idx 0).val = (j 0).val := by
  show (pickDims wf).start j idx 0 + (pickDims wf).batchCoord j 0 + (pickDims wf).offCoord j 0 = _
  rw [GatherDims.start_batching _ _ _ _ (show (0 : Fin 2) ∈ (pickDims wf).operandBatchingDims from List.mem_singleton.mpr rfl),
    GatherDims.offCoord_eq_zero _ _ _ (fun h => ((GatherDims.mem_sKept _ _).1 h).2 (List.mem_singleton.mpr rfl))]
  unfold GatherDims.batchCoord
  rw [dif_pos (show (0 : Fin 2) ∈ (pickDims wf).operandBatchingDims from List.mem_singleton.mpr rfl)]
  simp only [Nat.zero_add, Nat.add_zero]
  rfl

/-- On the class axis it is the start index, read signed and clamped into `[0, 999]`. -/
theorem pick_col (idx : IVec SPickIdx 32) (j : SPicked.Idx) :
    ((pickDims wf).operandIdx j idx 1).val = min (idx (ix3 (j 0) (j 1) 0)).toInt.toNat 999 := by
  show (pickDims wf).start j idx 1 + (pickDims wf).batchCoord j 1 + (pickDims wf).offCoord j 1 = _
  rw [GatherDims.batchCoord_eq_zero _ _ _ (show (1 : Fin 2) ∉ ([0] : List (Fin 2)) by decide),
    GatherDims.offCoord_eq_zero _ _ _ (fun h => ((GatherDims.mem_sKept _ _).1 h).1 (List.mem_singleton.mpr rfl))]
  simp only [Nat.add_zero]
  unfold GatherDims.start
  rw [dif_pos (show (1 : Fin 2) ∈ (pickDims wf).startIndexMap from List.mem_singleton.mpr rfl)]
  have hsi : (pickDims wf).siIdx j ⟨List.idxOf (1 : Fin 2) (pickDims wf).startIndexMap,
      List.idxOf_lt_length_iff.2 (List.mem_singleton.mpr rfl)⟩ = ix3 (j 0) (j 1) 0 := by
    funext c; refine Fin.ext ?_
    match c with
    | ⟨0, _⟩ => rfl
    | ⟨1, _⟩ => rfl
    | ⟨2, _⟩ => rfl
  rw [hsi]
  rfl

/-- THE PICK AT ROW `b`: the operand at `(b, clamp idx[b, 0, 0])`. -/
theorem pick_apply {α : Type} (x : SLogits.Idx → α) (idx : IVec SPickIdx 32) (b : Fin 32768) :
    Host.gather (pickDims wf) x idx (ix2 b 0)
      = x (ix2 b ⟨min (idx (ix3 b 0 0)).toInt.toNat 999, by omega⟩) := by
  unfold Host.gather
  congr 1
  funext a
  refine Fin.ext ?_
  match a with
  | ⟨0, _⟩ => exact pick_row wf idx (ix2 b 0)
  | ⟨1, _⟩ => exact pick_col wf idx (ix2 b 0)

/-! ## The pick's in-bounds mask -/

/-- A left fold by `and` from 1 over words that are all 1 is 1. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 by decide]
    exact foldl_andi_ones x hx l

/-- An `all` (a reduce by `and` from true) over an array of ones is one. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  exact foldl_andi_ones x hx _

end Cert.BalancedSoftmax

end
-- ==== Proof.Spec.lean ====
/-
  The balanced-softmax loss, row by row, in the two arrangements the programs compute it in.

  With `f` the class histogram, row `b`'s log-normaliser is `log ∑ₖ exp x[b,k] · f[k]`. The reference picks, at the
  row's class `t`, `log (exp x[b,t] · f[t])` less the normaliser. The kernel sums over `k` the entries
  `x[b,k] + g[k]` masked by `target = k` (`g` the guarded logarithm of the histogram) and subtracts the same
  normaliser. Where the target is the class `t`, the histogram there is a count `n ≥ 1`, `g[t] = log n` and
  `x[b,t]` is real, the two agree: `log (exp p · n) = p + log n`.
  The loss sums the rows' picks; the kernel sums them 1024 at a time and then the 32 partial sums.
-/
import proofs.«402333_j79663053406253_2_alg».proof.Proof.Scalars
import proofs.«402333_j79663053406253_2_alg».proof.Proof.Hist
import proofs.«402333_j79663053406253_2_alg».proof.Proof.Pick
import Idealize.ShloMosaic.Lib.Affine

noncomputable section

namespace Cert.BalancedSoftmax

open Idealize.ShloMosaic Idealize.ShloMosaic.ValueIdx

variable (X : SLogits.Idx → EReal) (f g : SClasses.Idx → EReal)

/-- Row `b`'s log-normaliser. -/
def logNorm (b : Fin 32768) : EReal := Ideal.log (∑ k : Fin 1000, Ideal.exp (X (ix2 b k)) * f (ix1 k))

/-- The reference's picked logit of row `b` at class `t`. -/
def refPick (b : Fin 32768) (t : Fin 1000) : EReal :=
  Ideal.log (Ideal.exp (X (ix2 b t)) * f (ix1 t)) - logNorm X f b

/-- The kernel's value of row `b` whose target word is `w`: the masked sum less the normaliser. -/
def kerPick (b : Fin 32768) (w : BitVec 32) : EReal :=
  (∑ k : Fin 1000, Scalar.select (IntOp.cmpi .eq w (BitVec.ofNat 32 k.val)) (X (ix2 b k) + g (ix1 k)) 0) - logNorm X f b

/-- A sum masked by `w = k` over the classes, where `w` is the class `t`, is its entry at `t`. -/
theorem masked_sum (w : BitVec 32) (t : Fin 1000) (hw : w = BitVec.ofNat 32 t.val) (h : Fin 1000 → EReal) :
    ∑ k : Fin 1000, Scalar.select (IntOp.cmpi .eq w (BitVec.ofNat 32 k.val)) (h k) 0 = h t := by
  rw [Finset.sum_eq_single t]
  · rw [hw, IntOp.cmpi_eq.2 rfl]; exact select_one _ _
  · intro k _ hk
    have hne : IntOp.cmpi .eq w (BitVec.ofNat 32 k.val) = 0#1 := eq_zero_of_ne_one fun e => hk (by
      have e' := congrArg BitVec.toNat ((IntOp.cmpi_eq.1 e).symm.trans hw)
      simp only [BitVec.toNat_ofNat] at e'
      have := k.isLt; have := t.isLt
      exact Fin.ext (by omega))
    rw [hne]; exact select_zero _ _
  · intro hnot; exact absurd (Finset.mem_univ _) hnot

/-- THE ROW LAW: the kernel's and the reference's values of a row agree. -/
theorem kerPick_eq_refPick (b : Fin 32768) (w : BitVec 32) (t : Fin 1000) (hw : w = BitVec.ofNat 32 t.val)
    (p : ℝ) (hp : X (ix2 b t) = (p : EReal)) (n : ℕ) (hn : 1 ≤ n) (hf : f (ix1 t) = ((n : ℝ) : EReal))
    (hg : g (ix1 t) = Ideal.log ((n : ℝ) : EReal)) :
    kerPick X f g b w = refPick X f b t := by
  unfold kerPick refPick
  have hm := masked_sum w t hw (fun k => X (ix2 b k) + g (ix1 k))
  rw [hm, hp, hg, hf, log_exp_mul_count p n hn]

/-! ## The sums re-indexed -/

/-- A sum over a `[32768, 1]` column is the sum over its rows. -/
theorem sum_column (h : SPicked.Idx → EReal) : ∑ i : SPicked.Idx, h i = ∑ b : Fin 32768, h (ix2 b 0) := by
  rw [sum_idx2]
  exact Finset.sum_congr rfl fun b _ => Fin.sum_univ_one _

abbrev SParts : Shape := ⟨3, ![32, 1, 1]⟩

/-- A `[32, 1, 1]` array's indices are its 32 leading coordinates. -/
def partsEquiv : SParts.Idx ≃ Fin 32 where
  toFun i := i 0
  invFun t := ix3 t 0 0
  left_inv i := by
    funext a
    match a with
    | ⟨0, _⟩ => rfl
    | ⟨1, h1⟩ =>
      apply Fin.ext
      have hlt : (i ⟨1, h1⟩).val < 1 := (i ⟨1, h1⟩).isLt
      show 0 = (i ⟨1, h1⟩).val
      omega
    | ⟨2, h2⟩ =>
      apply Fin.ext
      have hlt : (i ⟨2, h2⟩).val < 1 := (i ⟨2, h2⟩).isLt
      show 0 = (i ⟨2, h2⟩).val
      omega
  right_inv _ := rfl

/-- A sum over a `[32, 1, 1]` array is the sum over its 32 entries. -/
theorem sum_parts (h : SParts.Idx → EReal) : ∑ i : SParts.Idx, h i = ∑ t : Fin 32, h (ix3 t 0 0) :=
  (Equiv.sum_comp partsEquiv.symm h).symm

/-- Row `r` of block `t`, 1024 rows a block. -/
def rowOf (t : Fin 32) (r : Fin 1024) : Fin 32768 := ⟨t.val * 1024 + r.val, by have := t.isLt; have := r.isLt; omega⟩

/-- The rows are the 32 blocks' rows. -/
theorem sum_rows_by_block (h : Fin 32768 → EReal) : ∑ b : Fin 32768, h b = ∑ t : Fin 32, ∑ r : Fin 1024, h (rowOf t r) := by
  have e : ∑ b : Fin 32768, h b = ∑ p : Fin 32 × Fin 1024, h ((finProdFinEquiv : Fin 32 × Fin 1024 ≃ Fin 32768) p) :=
    (Equiv.sum_comp (finProdFinEquiv : Fin 32 × Fin 1024 ≃ Fin 32768) h).symm
  rw [e, Fintype.sum_prod_type]
  refine Finset.sum_congr rfl fun t _ => Finset.sum_congr rfl fun r _ => congrArg h (Fin.ext ?_)
  show r.val + 1024 * t.val = t.val * 1024 + r.val
  omega

end Cert.BalancedSoftmax

end
-- ==== Proof.KerValue.lean ====
/-
  The kernel's output array after the run, and the loss the host lines after the region compute from it.

  Grid point `t` reads rows `1024·t … 1024·t + 1023` of the logits and of the target column, and the whole
  histogram and log-histogram rows; it writes the one entry `(t, 0, 0)` of the `[32, 1, 1]` output: the sum of its
  rows' values. The 32 one-entry blocks tile the output, so after the run the output is that function of the
  arrays the region found; the host then sums it, negates and divides by 32768.
-/
import proofs.«402333_j79663053406253_2_alg».proof.Proof.Gen.KernelIdeal.Frame
import proofs.«402333_j79663053406253_2_alg».proof.Proof.KerBody
import proofs.«402333_j79663053406253_2_alg».proof.Proof.Spec
import Idealize.ShloMosaic.Lib.Pipeline.Value
import Idealize.ShloMosaic.Lib.StableHlo.Run

set_option maxRecDepth 16384

noncomputable section

namespace Cert.KernelIdeal.KerValue

open Cert.KernelIdeal Cert.KernelIdeal.Gen Cert.KernelIdeal.Body Cert.BalancedSoftmax
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The arrays as the region finds them. -/
abbrev xarr (c : Dev nD) : FVec Ideal S32768x1000 .f32 := V m c main_arg0
abbrev frarr (c : Dev nD) : FVec Ideal S1x1000 .f32 := V m c main_v9
abbrev lfarr (c : Dev nD) : FVec Ideal S1x1000 .f32 := V m c main_v16
abbrev tgarr (c : Dev nD) : IVec S32768x1 32 := V m c main_v17

/-- The blocks a grid point loads. -/
abbrev xblk (c : Dev nD) (t : Fin cfg0.N) : FVec Ideal S1024x1000 .f32 := iblk m c 0 t
abbrev frblk (c : Dev nD) (t : Fin cfg0.N) : FVec Ideal S1x1000 .f32 := iblk m c 1 t
abbrev lfblk (c : Dev nD) (t : Fin cfg0.N) : FVec Ideal S1x1000 .f32 := iblk m c 2 t
abbrev tgblk (c : Dev nD) (t : Fin cfg0.N) : IVec S1024x1 32 := iblk m c 3 t

/-- A grid point as one of the 32 blocks. -/
abbrev blockOf (t : Fin cfg0.N) : Fin 32 := Fin.cast N_0 t

/-- Row `b`'s value: the masked pick less the logarithm of the scaled exponential sum. -/
def rowVal (c : Dev nD) (b : Fin 32768) : EReal :=
  (∑ k : Fin 1000, Scalar.select (IntOp.cmpi .eq (tgarr m c (ix2 b (0 : Fin 1))) (BitVec.ofNat 32 k.val))
      (xarr m c (ix2 b k) + lfarr m c (ix2 (0 : Fin 1) k)) 0)
    - Ideal.log (∑ k : Fin 1000, Ideal.exp (xarr m c (ix2 b k)) * frarr m c (ix2 (0 : Fin 1) k))

/-- The output array: entry `(t, 0, 0)` is the sum of block `t`'s rows' values. -/
def G (c : Dev nD) : FVec Ideal S32x1x1 .f32 := fun i => ∑ r : Fin 1024, rowVal m c (rowOf (i 0) r)

/-- The printed index maps, decided over the grid. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The logits block at `(r, k)` is the logits at row `1024·t + r`. -/
theorem xblk_apply (c : Dev nD) (t : Fin cfg0.N) (r : Fin 1024) (k : Fin 1000) :
    xblk m c t (ix2 r k) = xarr m c (ix2 (rowOf (blockOf t) r) k) := by
  obtain ⟨e0, e1, -⟩ := idx_facts t
  show V m c main_arg0 (((cfg0.win 0).blk t).view.emb (ix2 r k)) = V m c main_arg0 (ix2 (rowOf (blockOf t) r) k)
  refine congrArg (V m c main_arg0) (funext fun a => Fin.ext ?_)
  match a with
  | ⟨0, _⟩ => show win0_0.index t (0 : Fin 2) * 1024 + 1 * r.val = t.val * 1024 + r.val; omega
  | ⟨1, _⟩ => show win0_0.index t (1 : Fin 2) * 1000 + 1 * k.val = k.val; omega

/-- The histogram block is the histogram row. -/
theorem frblk_apply (c : Dev nD) (t : Fin cfg0.N) (k : Fin 1000) :
    frblk m c t (ix2 (0 : Fin 1) k) = frarr m c (ix2 (0 : Fin 1) k) := by
  obtain ⟨-, -, e0, e1, -⟩ := idx_facts t
  show V m c main_v9 (((cfg0.win 1).blk t).view.emb (ix2 (0 : Fin 1) k)) = V m c main_v9 (ix2 (0 : Fin 1) k)
  refine congrArg (V m c main_v9) (funext fun a => Fin.ext ?_)
  match a with
  | ⟨0, _⟩ => show win0_1.index t (0 : Fin 2) * 1 + 1 * 0 = 0; omega
  | ⟨1, _⟩ => show win0_1.index t (1 : Fin 2) * 1000 + 1 * k.val = k.val; omega

/-- The log-histogram block is the log-histogram row. -/
theorem lfblk_apply (c : Dev nD) (t : Fin cfg0.N) (k : Fin 1000) :
    lfblk m c t (ix2 (0 : Fin 1) k) = lfarr m c (ix2 (0 : Fin 1) k) := by
  obtain ⟨-, -, -, -, e0, e1, -⟩ := idx_facts t
  show V m c main_v16 (((cfg0.win 2).blk t).view.emb (ix2 (0 : Fin 1) k)) = V m c main_v16 (ix2 (0 : Fin 1) k)
  refine congrArg (V m c main_v16) (funext fun a => Fin.ext ?_)
  match a with
  | ⟨0, _⟩ => show win0_2.index t (0 : Fin 2) * 1 + 1 * 0 = 0; omega
  | ⟨1, _⟩ => show win0_2.index t (1 : Fin 2) * 1000 + 1 * k.val = k.val; omega

/-- The target block at `(r, 0)` is the target column at row `1024·t + r`. -/
theorem tgblk_apply (c : Dev nD) (t : Fin cfg0.N) (r : Fin 1024) :
    tgblk m c t (ix2 r (0 : Fin 1)) = tgarr m c (ix2 (rowOf (blockOf t) r) (0 : Fin 1)) := by
  obtain ⟨-, -, -, -, -, -, e0, e1, -⟩ := idx_facts t
  show V m c main_v17 (((cfg0.win 3).blk t).view.emb (ix2 r (0 : Fin 1))) = V m c main_v17 (ix2 (rowOf (blockOf t) r) (0 : Fin 1))
  refine congrArg (V m c main_v17) (funext fun a => Fin.ext ?_)
  match a with
  | ⟨0, _⟩ => show win0_3.index t (0 : Fin 2) * 1024 + 1 * r.val = t.val * 1024 + r.val; omega
  | ⟨1, _⟩ => show win0_3.index t (1 : Fin 2) * 1 + 1 * 0 = 0; omega

/-- WHAT POINT `t` WRITES BACK is block `t` of `G`. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero hz3]
  simp only [View.ld_unit_zero (S := S1024x1000) hz2, View.ld_unit_zero (S := S1x1000) hz2,
    View.ld_unit_zero (S := S1024x1) hz2]
  funext j
  have h0 : (j 0).val < 1 := (j 0).isLt
  have h1 : (j 1).val < 1 := (j 1).isLt
  have h2 : (j 2).val < 1 := (j 2).isLt
  obtain rfl : j = ix3 (0 : Fin 1) (0 : Fin 1) (0 : Fin 1) := by
    funext a
    match a with
    | ⟨0, _⟩ => exact Fin.ext (by show (j 0).val = 0; omega)
    | ⟨1, _⟩ => exact Fin.ext (by show (j 1).val = 0; omega)
    | ⟨2, _⟩ => exact Fin.ext (by show (j 2).val = 0; omega)
  show k0_pay1 (F := Ideal) (xblk m c t) (frblk m c t) (lfblk m c t) (tgblk m c t) (ix3 (0 : Fin 1) (0 : Fin 1) (0 : Fin 1))
      = G m c (((cfg0.win 4).blk t).view.emb (ix3 (0 : Fin 1) (0 : Fin 1) (0 : Fin 1)))
  refine (pay_apply _ _ _ _).trans ?_
  obtain ⟨-, -, -, -, -, -, -, -, e0, -, -⟩ := idx_facts t
  have he : (((cfg0.win 4).blk t).view.emb (ix3 (0 : Fin 1) (0 : Fin 1) (0 : Fin 1))) 0 = blockOf t :=
    Fin.ext (by show win0_4.index t (0 : Fin 3) * 1 + 1 * 0 = t.val; omega)
  unfold G
  show _ = ∑ r : Fin 1024, rowVal m c (rowOf ((((cfg0.win 4).blk t).view.emb (ix3 (0 : Fin 1) (0 : Fin 1) (0 : Fin 1))) 0) r)
  rw [he]
  refine Finset.sum_congr rfl fun r _ => ?_
  unfold rowVal
  simp only [tgblk_apply, xblk_apply, frblk_apply, lfblk_apply]

/-- An index of the output is in point `t`'s block iff each coordinate is in the block's range on its axis. -/
theorem mem_blk (t : Fin cfg0.N) (i : S32x1x1.Idx) :
    i ∈ ((cfg0.win 4).blk t).view.set ↔ ∀ a : Fin 3, win0_4.index t a * S1x1x1.size a ≤ (i a).val
      ∧ (i a).val < win0_4.index t a * S1x1x1.size a + S1x1x1.size a := by
  show i ∈ ((View.whole main_v18).slice (win0_4.rect t)).set ↔ _
  rw [View.set_slice_whole, Rect.mem_set_unit]
  exact Iff.rfl

/-- THE BLOCKS TILE THE OUTPUT: entry `(i, 0, 0)` is point `i`'s block. -/
theorem cover (i : S32x1x1.Idx) :
    ∃ t : Fin cfg0.N, (cfg0.win 4).flush t = true ∧ i ∈ ((cfg0.win 4).blk t).view.set := by
  have h0 : (i 0).val < 32 := (i 0).isLt
  have h1 : (i 1).val < 1 := (i 1).isLt
  have h2 : (i 2).val < 1 := (i 2).isLt
  have hN : cfg0.N = 32 := N_0
  obtain ⟨t, ht⟩ : ∃ t : Fin cfg0.N, t.val = (i 0).val := ⟨⟨(i 0).val, by omega⟩, rfl⟩
  refine ⟨t, flush0_4 t, ?_⟩
  rw [mem_blk]
  obtain ⟨-, -, -, -, -, -, -, -, e0, e1, e2⟩ := idx_facts t
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1 ≤ (i 1).val ∧ (i 1).val < win0_4.index t (1 : Fin 3) * 1 + 1
    omega
  | ⟨2, _⟩ =>
    show win0_4.index t (2 : Fin 3) * 1 ≤ (i 2).val ∧ (i 2).val < win0_4.index t (2 : Fin 3) * 1 + 1
    omega

/-- THE OUTPUT ARRAY after the run is `G`. -/
theorem final (c : Dev nD) : (dats m 0 c).arrAt 4 cfg0.N = G m c :=
  (dats m 0 c).arrAt_eq_of_cover 4 (G m c) (fun t _ => flushed_eq m c t) cover

/-- The host lines after the region: sum, negate, divide by 32768. -/
def lossOf (Y : FVec Ideal S32x1x1 .f32) : FVec Ideal S_ .f32 :=
  Host.divf (Host.negf (Host.reduceAdd (F := Ideal) Y (constant (F := Ideal) S_ .f32 0x00000000#32)
    Gen.reducesTo_S32x1x1_S_d0_1_2 Gen.h_S_)) (constant (F := Ideal) S_ .f32 0x47000000#32)

/-- THE RESULT BUFFER after the lines that follow the region. -/
theorem tail_eq (c : Dev nD) :
    Pipeline.afterTail₀ cfgs (dats m) 0 (V0 m) [hostOps1] c main_v21 = lossOf (G m c) := by
  unfold Pipeline.afterTail₀
  show StableHlo.after hostOps1 _ (Proc.devRef .tc main_v21) = _
  after_results
  have e : Pipeline.withArrays (cfgs 0).spec c (V0 m c) (fun w => (dats m 0 c).arrAt w (cfgs 0).N)
      (Proc.devRef .tc main_v18) = G m c :=
    (Pipeline.withArrays_arr spec0 launch0.win.arr_inj c _ _ 4).trans (final m c)
  rw [e]
  rfl

end Cert.KernelIdeal.KerValue

end
-- ==== Proof.RefValue.lean ====
/-
  The reference, row by row, under the precondition `0 ≤ target < 1000`.

  With every target a class number: the negative-index wrap leaves the target as it is, so row `b` lands on the
  class `t_b = target[b]` in the histogram and the pick's start index is `t_b`; the pick's in-bounds mask is true,
  so the fill value is never selected; and the picked entry is `log (exp x[b,t_b] · f[t_b])` less the row's
  log-normaliser. The loss's sum is the sum of these over the rows.
-/
import proofs.«402333_j79663053406253_2_alg».proof.Proof.RefReadP
import proofs.«402333_j79663053406253_2_alg».proof.Proof.Spec
import Idealize.ShloMosaic.Lib.IdealHost

noncomputable section

namespace Cert.ReferenceIdeal.RefValue

open Cert.ReferenceIdeal Cert.ReferenceIdeal.Gen Cert.ReferenceIdeal.ReadP Cert.BalancedSoftmax
open Idealize.ShloMosaic Idealize.ShloMosaic.ValueIdx

variable (X : (⟨S32768x1000, .f32⟩ : BufTy).Contents (Elt Ideal)) (T : (⟨S32768, .i32⟩ : BufTy).Contents (Elt Ideal))

/-- Every target is a class number. -/
def InRange : Prop := ∀ j : S32768.Idx, 0 ≤ (T j).toInt ∧ (T j).toInt < 1000

variable {T}

/-- Row `b`'s class. -/
def cls (hT : InRange T) (b : Fin 32768) : Fin 1000 :=
  ⟨(T (ix1 b)).toInt.toNat, by have := hT (ix1 b); omega⟩

theorem cls_word (hT : InRange T) (b : Fin 32768) : T (ix1 b) = BitVec.ofNat 32 (cls hT b).val := by
  have h := hT (ix1 b)
  apply BitVec.eq_of_toNat_eq
  rw [BitVec.toNat_ofNat]
  show (T (ix1 b)).toNat = (T (ix1 b)).toInt.toNat % 2 ^ 32
  obtain ⟨n, hn⟩ := Int.eq_ofNat_of_zero_le h.1
  have hcls : (T (ix1 b)).toInt.toNat = n := by rw [hn]; rfl
  rw [hcls]
  have e := BitVec.toInt_eq_toNat_cond (T (ix1 b))
  have hlt := (T (ix1 b)).isLt
  have h2 := h.2
  omega

/-- A non-negative word is not below zero. -/
theorem not_slt_zero (w : BitVec 32) (h : 0 ≤ w.toInt) : IntOp.cmpi .slt w 0#32 = 0#1 :=
  eq_zero_of_ne_one fun e => by
    have := IntOp.cmpi_slt.1 e
    simp at this
    omega

/-- The histogram's wrapped target is the target. -/
theorem wrap_main (hT : InRange T) (j : S32768.Idx) : val_main_v5 (F := Ideal) T j = T j := by
  rw [val_main_v5_apply, val_main_v2_apply, val_main_v1_apply, val_main_c_apply, not_slt_zero _ (hT j).1]
  exact select_zero _ _

/-- The pick's wrapped target, as a column, is the target. -/
theorem wrap_call (hT : InRange T) (i : S32768x1.Idx) : val_main_call0_v4 (F := Ideal) T i = T (idx_main_v19 i) := by
  rw [val_main_call0_v4_apply, val_main_call0_v1_apply, val_main_call0_v0_apply, val_main_call0_c_apply,
    val_main_v19_apply, not_slt_zero _ (hT _).1]
  exact select_zero _ _

/-- THE PICK'S MASK IS TRUE at every row. -/
theorem mask_true (hT : InRange T) (i : S32768x1.Idx) : val_main_call0_v12 (F := Ideal) T i = 1#1 := by
  unfold val_main_call0_v12
  refine reduce_andi_ones _ _ _ _ _ (fun k => ?_) rfl
  rw [val_main_call0_v11_apply, val_main_call0_v7_apply, val_main_call0_v10_apply, val_main_call0_v5_apply,
    wrap_call hT, val_main_call0_v6_apply, val_main_call0_c_2_apply, val_main_call0_v9_apply,
    val_main_call0_v8_apply, val_main_call0_c_1_apply]
  have h := hT (idx_main_v19 (idx_main_call0_v5 k))
  rw [IntOp.cmpi_sge.2 (by simpa using h.1), IntOp.cmpi_sle.2 (by
    have : (999#32 : BitVec 32).toInt = 999 := by decide
    rw [this]; omega)]
  decide

/-- Row `b`'s place in the `[32768, 1, 1]` start indices is row `b` of the targets. -/
theorem row_of_start (b : Fin 32768) :
    idx_main_v19 (idx_main_call0_v5 (ix3 b (0 : Fin 1) (0 : Fin 1))) = ix1 b := by
  funext a
  match a with
  | ⟨0, _⟩ => exact Fin.ext (by show ((b.val * 1 + 0) * 1 + 0) / 1 = b.val; omega)

/-- The pick's start index of row `b` is the target. -/
theorem start_word (hT : InRange T) (b : Fin 32768) :
    val_main_call0_v5 (F := Ideal) T (ix3 b (0 : Fin 1) (0 : Fin 1)) = T (ix1 b) := by
  rw [val_main_call0_v5_apply, wrap_call hT, row_of_start]

variable (T)

/-- The scaled exponential at `(b, k)`. -/
theorem scaled_apply (b : Fin 32768) (k : Fin 1000) :
    val_main_v12 (F := Ideal) X T (ix2 b k) = Ideal.exp (X (ix2 b k)) * val_main_v8 (F := Ideal) T (ix1 k) := by
  rw [val_main_v12_apply, val_main_v9_apply, val_main_v11_apply, val_main_v10_apply]
  have e : idx_main_v10 (idx_main_v11 (ix2 b k)) = ix1 k := funext fun a => match a with | ⟨0, _⟩ => rfl
  rw [e]
  rfl

/-- Row `b`'s log-normaliser. -/
theorem lognorm_apply (b : Fin 32768) :
    val_main_v15 (F := Ideal) X T (ix2 b (0 : Fin 1)) = logNorm X (val_main_v8 (F := Ideal) T) b := by
  unfold logNorm
  rw [val_main_v15_apply, val_main_v14_apply, val_main_v13_apply]
  have e : idx_main_v14 (ix2 b (0 : Fin 1)) = ix1 b := funext fun a => match a with | ⟨0, _⟩ => rfl
  rw [e]
  show Ideal.log (Ideal.ofBits .f32 0x00000000#32 + ∑ k : Fin 1000, val_main_v12 (F := Ideal) X T (idx_main_v13 (ix1 b) k)) = _
  rw [Ideal.ofBits_zero_f32, zero_add]
  refine congrArg Ideal.log (Finset.sum_congr rfl fun k _ => ?_)
  have e2 : idx_main_v13 (ix1 b) k = ix2 b k := funext fun a => match a with | ⟨0, _⟩ => rfl | ⟨1, _⟩ => rfl
  rw [e2, scaled_apply]

/-- The logits at `(b, t)`: the reference's pick of row `b` at class `t`. -/
theorem logits_apply (b : Fin 32768) (t : Fin 1000) :
    val_main_v18 (F := Ideal) X T (ix2 b t) = refPick X (val_main_v8 (F := Ideal) T) b t := by
  unfold refPick
  rw [val_main_v18_apply, val_main_v16_apply, val_main_v17_apply]
  have e : idx_main_v17 (ix2 b t) = ix2 b (0 : Fin 1) := funext fun a => match a with | ⟨0, _⟩ => rfl | ⟨1, _⟩ => rfl
  rw [e, lognorm_apply, scaled_apply]
  rfl

variable {T}

/-- THE PICK of row `b`: the logits at the row's class. -/
theorem picked_apply (hT : InRange T) (b : Fin 32768) :
    val_main_call0_v13 (F := Ideal) X T (ix2 b (0 : Fin 1)) = refPick X (val_main_v8 (F := Ideal) T) b (cls hT b) := by
  unfold val_main_call0_v13
  refine (pick_apply _ _ _ b).trans ?_
  rw [← logits_apply]
  refine congrArg (val_main_v18 (F := Ideal) X T) (congrArg (ix2 b) (Fin.ext ?_))
  show min (val_main_call0_v5 (F := Ideal) T (ix3 b (0 : Fin 1) (0 : Fin 1))).toInt.toNat 999 = (T (ix1 b)).toInt.toNat
  rw [start_word hT]
  have h := hT (ix1 b)
  obtain ⟨n, hn⟩ := Int.eq_ofNat_of_zero_le h.1
  have hc : (T (ix1 b)).toInt.toNat = n := by rw [hn]; rfl
  rw [hc]
  have h2 := h.2
  omega

/-- THE HISTOGRAM at a row's class is a count of at least one: the row itself lands there. -/
theorem hist_at_cls (hT : InRange T) (b : Fin 32768) :
    ∃ n : ℕ, 1 ≤ n ∧ val_main_v8 (F := Ideal) T (ix1 (cls hT b)) = ((n : ℝ) : EReal) := by
  unfold val_main_v8
  refine hist_count _ _ _ _ b (cls hT b) ?_ ?_ ?_
  · rw [val_main_v0_apply, val_main_cst_apply]; exact Ideal.ofBits_zero_f32
  · intro j; rw [val_main_v7_apply, val_main_cst_1_apply]; exact Ideal.ofBits_one_f32
  · rw [val_main_v6_apply, wrap_main hT]
    have e : idx_main_v6 (ix2 b (0 : Fin 1)) = ix1 b := funext fun a => match a with | ⟨0, _⟩ => rfl
    rw [e]
    exact (Int.toNat_of_nonneg (hT (ix1 b)).1).symm

/-- THE LOSS'S SUM: zero plus the rows' picks. -/
theorem total_apply (hT : InRange T) (i : S_.Idx) :
    val_main_v21 (F := Ideal) X T i = 0 + ∑ b : Fin 32768, refPick X (val_main_v8 (F := Ideal) T) b (cls hT b) := by
  rw [val_main_v21_apply, sum_column]
  refine congrArg₂ (· + ·) Ideal.ofBits_zero_f32 (Finset.sum_congr rfl fun b _ => ?_)
  rw [val_main_v20_apply, mask_true hT, picked_apply X hT]
  exact select_one _ _

end Cert.ReferenceIdeal.RefValue

end
-- ==== Proof.Bridge.lean ====
/-
  The kernel's loss is the reference's loss, at the ideal values, under the precondition.

  Both programs end in the same two host operations — negate, divide by 32768 — applied to a sum. The reference's
  sum is zero plus, over the rows `b`, `log (exp x[b,t_b] · f[t_b]) − L_b` with `t_b` the row's class, `f` the class
  histogram and `L_b` the row's log-normaliser. The kernel's is zero plus, over the 32 blocks and each block's 1024
  rows, `(x[b,t_b] + log f[t_b]) − L_b`: the masked sum keeps the target's entry, and the guarded logarithm of a
  count `f[t_b] ≥ 1` is its logarithm. The two histograms are one term; `log (exp p · n) = p + log n` joins the rows;
  the 32 × 1024 rows are the 32768 rows.
-/
import proofs.«402333_j79663053406253_2_alg».proof.Defs
import proofs.«402333_j79663053406253_2_alg».proof.Proof.Gen.KernelIdeal.Frame
import proofs.«402333_j79663053406253_2_alg».proof.Proof.Gen.Pre_finite_inputs
import proofs.«402333_j79663053406253_2_alg».proof.Proof.RefRunP
import proofs.«402333_j79663053406253_2_alg».proof.Proof.RefReadP
import proofs.«402333_j79663053406253_2_alg».proof.Proof.PreDecode
import proofs.«402333_j79663053406253_2_alg».proof.Proof.KerHost
import proofs.«402333_j79663053406253_2_alg».proof.Proof.KerValue
import proofs.«402333_j79663053406253_2_alg».proof.Proof.RefValue

set_option maxRecDepth 16384

noncomputable section

namespace Cert.KernelIdeal.Bridge

open Cert.KernelIdeal Cert.KernelIdeal.Gen Cert.BalancedSoftmax
open Idealize.ShloMosaic Idealize.ShloMosaic.TcCoe Idealize.ShloMosaic.ValueIdx Idealize.SL.Sem
open Cert.ReferenceIdeal (RefValue.InRange RefValue.cls)

/-- ONE HISTOGRAM: the two programs scatter the same ones at the same wrapped targets. -/
theorem freq_eq (T : IVec S32768 32) :
    KerHost.freq T = Cert.ReferenceIdeal.ReadP.val_main_v8 (F := Ideal) T := rfl

variable (m : (ℓ : Loc nD τ sig) → Buf (Elt Ideal) ℓ)

/-- The launch contents of the two arguments. -/
abbrev logits (c : Dev nD) : FVec Ideal S32768x1000 .f32 := m ((c : Thread nD τ).loc main_arg0)
abbrev targets (c : Dev nD) : IVec S32768 32 := m ((c : Thread nD τ).loc main_arg1)

/-- THE PRECONDITION, decoded at the kernel's arguments. -/
theorem pre_facts (hpre : Cert.Pre_KernelIdeal m) (c : Dev nD) :
    (∀ i, ∃ r : ℝ, logits m c i = (r : EReal)) ∧ Cert.ReferenceIdeal.RefValue.InRange (targets m c) :=
  pre_decode _ _ (hpre c)

/-- A row's value in the kernel is the masked-sum pick over the launch contents. -/
theorem rowVal_eq_kerPick (c : Dev nD) (b : Fin 32768) :
    KerValue.rowVal m c b
      = kerPick (logits m c) (Cert.ReferenceIdeal.ReadP.val_main_v8 (F := Ideal) (targets m c))
          (KerHost.safeLog (targets m c)) b (targets m c (ix1 b)) := by
  unfold KerValue.rowVal kerPick logNorm
  have hx : KerValue.xarr m c = logits m c := V_main_arg0 m c
  have ht : KerValue.tgarr m c (ix2 b (0 : Fin 1)) = targets m c (ix1 b) := KerHost.tgt_col_apply m c b
  have hl : ∀ k : Fin 1000, KerValue.lfarr m c (ix2 (0 : Fin 1) k) = KerHost.safeLog (targets m c) (ix1 k) :=
    fun k => KerHost.safeLog_row_apply m c k
  have hf : ∀ k : Fin 1000, KerValue.frarr m c (ix2 (0 : Fin 1) k)
      = Cert.ReferenceIdeal.ReadP.val_main_v8 (F := Ideal) (targets m c) (ix1 k) :=
    fun k => (KerHost.freq_row_apply m c k).trans (congrFun (freq_eq _) _)
  rw [hx, ht]
  simp only [hl, hf]

/-- THE ROW LAW at the programs' arrays. -/
theorem rowVal_eq_refPick (c : Dev nD) (hX : ∀ i, ∃ r : ℝ, logits m c i = (r : EReal))
    (hT : Cert.ReferenceIdeal.RefValue.InRange (targets m c)) (b : Fin 32768) :
    KerValue.rowVal m c b
      = refPick (logits m c) (Cert.ReferenceIdeal.ReadP.val_main_v8 (F := Ideal) (targets m c)) b
          (Cert.ReferenceIdeal.RefValue.cls hT b) := by
  rw [rowVal_eq_kerPick]
  obtain ⟨p, hp⟩ := hX (ix2 b (Cert.ReferenceIdeal.RefValue.cls hT b))
  obtain ⟨n, hn, hf⟩ := Cert.ReferenceIdeal.RefValue.hist_at_cls hT b
  refine kerPick_eq_refPick _ _ _ b _ (Cert.ReferenceIdeal.RefValue.cls hT b)
    (Cert.ReferenceIdeal.RefValue.cls_word hT b) p hp n hn hf ?_
  show KerHost.guardedLog (KerHost.freq (targets m c)) (ix1 (Cert.ReferenceIdeal.RefValue.cls hT b)) = _
  rw [KerHost.guardedLog_apply, freq_eq, hf]
  exact guarded_log_count n hn 0

/-- THE TWO SUMS AGREE. -/
theorem sum_eq (c : Dev nD) (hX : ∀ i, ∃ r : ℝ, logits m c i = (r : EReal))
    (hT : Cert.ReferenceIdeal.RefValue.InRange (targets m c)) :
    Host.reduceAdd (F := Ideal) (KerValue.G m c) (constant (F := Ideal) S_ .f32 0x00000000#32)
        Gen.reducesTo_S32x1x1_S_d0_1_2 Gen.h_S_
      = Cert.ReferenceIdeal.ReadP.val_main_v21 (F := Ideal) (logits m c) (targets m c) := by
  funext i
  rw [Cert.ReferenceIdeal.RefValue.total_apply _ hT, hostReduceAdd_apply,
    Ideal.hostReduceAdd_total _ (fun b => b.elim0), sum_parts, sum_rows_by_block]
  refine congrArg₂ (· + ·) Ideal.ofBits_zero_f32 (Finset.sum_congr rfl fun t _ => ?_)
  show ∑ r : Fin 1024, KerValue.rowVal m c (rowOf t r) = _
  exact Finset.sum_congr rfl fun r _ => rowVal_eq_refPick m c hX hT (rowOf t r)

/-- THE KERNEL'S LOSS IS THE REFERENCE'S. -/
theorem loss_eq (c : Dev nD) (hX : ∀ i, ∃ r : ℝ, logits m c i = (r : EReal))
    (hT : Cert.ReferenceIdeal.RefValue.InRange (targets m c)) :
    KerValue.lossOf (KerValue.G m c)
      = Cert.ReferenceIdeal.ReadP.val_main_v23 (F := Ideal) (logits m c) (targets m c) := by
  unfold KerValue.lossOf
  rw [sum_eq m c hX hT]
  rfl

end Cert.KernelIdeal.Bridge

end
-- ==== Proof.lean ====
/-
  Balanced-softmax loss: a Pallas kernel against its jnp reference, over the extended reals.

  For logits `x : [32768, 1000]` and class targets `t : [32768]`, with `f` the class histogram of the targets, the loss is
      −(1/32768) · ∑_b ( log (exp x[b,t_b] · f[t_b]) − log ∑_k exp x[b,k] · f[k] ).
  The reference computes exactly this, picking the entry at `t_b` by an indexed read. The kernel, per block of 1024
  rows, adds `x[b,k] + g[k]` over the classes masked by `t_b = k` (with `g` the logarithm of the histogram, guarded to be
  finite where a class is empty), subtracts the same log-normaliser, and sums the block; the host sums the 32 blocks.
  Under the precondition — finite logits, and every target a class number in `[0, 1000)` — the two agree: the target's
  own row lands on its class, so `f[t_b] ≥ 1`, the guard is inactive there, and `log (exp p · n) = p + log n`.
  The frames of the two kernel programs and the kernel's run are the generated ones; the reference's run is the
  generated run.
-/
import proofs.«402333_j79663053406253_2_alg».proof.Defs
import proofs.«402333_j79663053406253_2_alg».proof.Proof.Gen.Kernel
import proofs.«402333_j79663053406253_2_alg».proof.Proof.Gen.Kernel.Skeleton
import proofs.«402333_j79663053406253_2_alg».proof.Proof.Gen.Kernel.Launch
import proofs.«402333_j79663053406253_2_alg».proof.Proof.Gen.Kernel.Points
import proofs.«402333_j79663053406253_2_alg».proof.Proof.Gen.Kernel.Frame
import proofs.«402333_j79663053406253_2_alg».proof.Proof.Gen.KernelIdeal
import proofs.«402333_j79663053406253_2_alg».proof.Proof.Gen.KernelIdeal.Skeleton
import proofs.«402333_j79663053406253_2_alg».proof.Proof.Gen.KernelIdeal.Launch
import proofs.«402333_j79663053406253_2_alg».proof.Proof.Gen.KernelIdeal.Points
import proofs.«402333_j79663053406253_2_alg».proof.Proof.Gen.KernelIdeal.Frame
import proofs.«402333_j79663053406253_2_alg».proof.Proof.Gen.ReferenceIdeal
import proofs.«402333_j79663053406253_2_alg».proof.Proof.Gen.Pre_finite_inputs
import proofs.«402333_j79663053406253_2_alg».proof.Proof.RefRunP
import proofs.«402333_j79663053406253_2_alg».proof.Proof.RefReadP
import proofs.«402333_j79663053406253_2_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments, both programs end with the same loss. -/
theorem algebraic : Cert.algebraic_KernelIdeal_ReferenceIdeal := by
  intro m ρ m' ρ' hpre hagree
  refine ⟨fun c => Cert.KernelIdeal.KerValue.lossOf (Cert.KernelIdeal.KerValue.G m c), ?_, ?_⟩
  · refine (θ_run Cert.KernelIdeal.defs _ _).mono (fun r h c => ⟨?_, ?_, ?_⟩) (Cert.KernelIdeal.Gen.run_main m ρ)
    · exact ((h c).2 Cert.KernelIdeal.main_v21
        (Pipeline.mem_restRefs_of Cert.KernelIdeal.main_v21 (by decide) (by decide))).trans
        (Cert.KernelIdeal.KerValue.tail_eq m c)
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).2 Cert.KernelIdeal.main_arg1
        (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun r h c => ⟨(h c).1.trans ?_, (h c).2⟩)
      (Cert.ReferenceIdeal.ValueP.run (F := Ideal) m' ρ')
    rw [(hagree c).1, (hagree c).2, Cert.ReferenceIdeal.ReadP.val_main_v23_eq]
    obtain ⟨hX, hT⟩ := Cert.KernelIdeal.Bridge.pre_facts m hpre c
    exact (Cert.KernelIdeal.Bridge.loss_eq m c hX hT).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
